-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S3x40 : Shape := ⟨2, ![3, 40]⟩
abbrev S40 : Shape := ⟨1, ![40]⟩
abbrev S40x40 : Shape := ⟨2, ![40, 40]⟩
abbrev S40x3 : Shape := ⟨2, ![40, 3]⟩
abbrev S3 : Shape := ⟨1, ![3]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S3x40 : S_.BroadcastsInDim S3x40 (![] : Fin 0 → Fin S3x40.rank)
  reducesTo_S3x40_S_d0_1 : S3x40.ReducesTo [0, 1] S_
  bcast_S_S40 : S_.BroadcastsInDim S40 (![] : Fin 0 → Fin S40.rank)
  reducesTo_S40_S_d0 : S40.ReducesTo [0] S_
  bcast_S_S40x40 : S_.BroadcastsInDim S40x40 (![] : Fin 0 → Fin S40x40.rank)
  reducesTo_S40x40_S_d0_1 : S40x40.ReducesTo [0, 1] S_
  bcast_S_S40x3 : S_.BroadcastsInDim S40x3 (![] : Fin 0 → Fin S40x3.rank)
  reducesTo_S40x3_S_d0_1 : S40x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg14 : FVec F S3 .f32) (main_v63 : IVec S_ 1) (main_v67 : IVec S_ 1) : IVec S_ 1 :=
  let main_v68 : IVec S_ 1 := andi main_v63 main_v67
  let main_v69 : FVec F S3 .f32 := Host.absf main_arg14
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  main_v73

def fn_part3 {F : FTy → Type} [FloatOps F] (main_arg11 : FVec F S40x40 .f32) (main_arg12 : FVec F S40 .f32) (main_arg13 : FVec F S40x3 .f32) (main_arg14 : FVec F S3 .f32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : FVec F S40x40 .f32 := Host.absf main_arg11
  let main_cst_20 : FVec F S_ .f32 := constant S_ .f32 0x7F800000#32
  let main_v55 : FVec F S40x40 .f32 := broadcastInDim S40x40 ![] bcast_S_S40x40 main_cst_20
  let main_v56 : IVec S40x40 1 := cmpf .olt main_v54 main_v55
  let main_c_21 : IVec S_ 1 := constantI S_ 1 1#1
  let main_v57 : IVec S_ 1 := (fun x v => Host.reduce IntOp.andi x v reducesTo_S40x40_S_d0_1 h_S_) main_v56 main_c_21
  let main_v58 : IVec S_ 1 := andi main_v53 main_v57
  let main_v59 : FVec F S40 .f32 := Host.absf main_arg12
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  let main_v64 : FVec F S40x3 .f32 := Host.absf main_arg13
  let main_cst_24 : FVec F S_ .f32 := constant S_ .f32 0x7F800000#32
  let main_v65 : FVec F S40x3 .f32 := broadcastInDim S40x3 ![] bcast_S_S40x3 main_cst_24
  let main_v66 : IVec S40x3 1 := cmpf .olt main_v64 main_v65
  let main_c_25 : IVec S_ 1 := constantI S_ 1 1#1
  let main_v67 : IVec S_ 1 := (fun x v => Host.reduce IntOp.andi x v reducesTo_S40x3_S_d0_1 h_S_) main_v66 main_c_25
  fn_part4 (F := F) main_arg14 main_v63 main_v67

def fn_part2 {F : FTy → Type} [FloatOps F] (main_arg7 : FVec F S40x40 .f32) (main_arg8 : FVec F S40 .f32) (main_arg9 : FVec F S40x40 .f32) (main_arg10 : FVec F S40 .f32) (main_arg11 : FVec F S40x40 .f32) (main_arg12 : FVec F S40 .f32) (main_arg13 : FVec F S40x3 .f32) (main_arg14 : FVec F S3 .f32) (main_v33 : IVec S_ 1) : IVec S_ 1 :=
  let main_v34 : FVec F S40x40 .f32 := Host.absf main_arg7
  let main_cst_12 : FVec F S_ .f32 := constant S_ .f32 0x7F800000#32
  let main_v35 : FVec F S40x40 .f32 := broadcastInDim S40x40 ![] bcast_S_S40x40 main_cst_12
  let main_v36 : IVec S40x40 1 := cmpf .olt main_v34 main_v35
  let main_c_13 : IVec S_ 1 := constantI S_ 1 1#1
  let main_v37 : IVec S_ 1 := (fun x v => Host.reduce IntOp.andi x v reducesTo_S40x40_S_d0_1 h_S_) main_v36 main_c_13
  let main_v38 : IVec S_ 1 := andi main_v33 main_v37
  let main_v39 : FVec F S40 .f32 := Host.absf main_arg8
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : FVec F S40x40 .f32 := Host.absf main_arg9
  let main_cst_16 : FVec F S_ .f32 := constant S_ .f32 0x7F800000#32
  let main_v45 : FVec F S40x40 .f32 := broadcastInDim S40x40 ![] bcast_S_S40x40 main_cst_16
  let main_v46 : IVec S40x40 1 := cmpf .olt main_v44 main_v45
  let main_c_17 : IVec S_ 1 := constantI S_ 1 1#1
  let main_v47 : IVec S_ 1 := (fun x v => Host.reduce IntOp.andi x v reducesTo_S40x40_S_d0_1 h_S_) main_v46 main_c_17
  let main_v48 : IVec S_ 1 := andi main_v43 main_v47
  let main_v49 : FVec F S40 .f32 := Host.absf main_arg10
  let main_cst_18 : FVec F S_ .f32 := constant S_ .f32 0x7F800000#32
  let main_v50 : FVec F S40 .f32 := broadcastInDim S40 ![] bcast_S_S40 main_cst_18
  fn_part3 (F := F) main_arg11 main_arg12 main_arg13 main_arg14 main_v48 main_v49 main_v50

def fn_part1 {F : FTy → Type} [FloatOps F] (main_arg4 : FVec F S40 .f32) (main_arg5 : FVec F S40x40 .f32) (main_arg6 : FVec F S40 .f32) (main_arg7 : FVec F S40x40 .f32) (main_arg8 : FVec F S40 .f32) (main_arg9 : FVec F S40x40 .f32) (main_arg10 : FVec F S40 .f32) (main_arg11 : FVec F S40x40 .f32) (main_arg12 : FVec F S40 .f32) (main_arg13 : FVec F S40x3 .f32) (main_arg14 : FVec F S3 .f32) (main_v13 : IVec S_ 1) (main_v16 : IVec S40x40 1) : IVec S_ 1 :=
  let main_c_5 : IVec S_ 1 := constantI S_ 1 1#1
  let main_v17 : IVec S_ 1 := (fun x v => Host.reduce IntOp.andi x v reducesTo_S40x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S40x40 .f32 := Host.absf main_arg5
  let main_cst_8 : FVec F S_ .f32 := constant S_ .f32 0x7F800000#32
  let main_v25 : FVec F S40x40 .f32 := broadcastInDim S40x40 ![] bcast_S_S40x40 main_cst_8
  let main_v26 : IVec S40x40 1 := cmpf .olt main_v24 main_v25
  let main_c_9 : IVec S_ 1 := constantI S_ 1 1#1
  let main_v27 : IVec S_ 1 := (fun x v => Host.reduce IntOp.andi x v reducesTo_S40x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2097152x3 .f32) (main_arg1 : FVec F S3x40 .f32) (main_arg2 : FVec F S40 .f32) (main_arg3 : FVec F S40x40 .f32) (main_arg4 : FVec F S40 .f32) (main_arg5 : FVec F S40x40 .f32) (main_arg6 : FVec F S40 .f32) (main_arg7 : FVec F S40x40 .f32) (main_arg8 : FVec F S40 .f32) (main_arg9 : FVec F S40x40 .f32) (main_arg10 : FVec F S40 .f32) (main_arg11 : FVec F S40x40 .f32) (main_arg12 : FVec F S40 .f32) (main_arg13 : FVec F S40x3 .f32) (main_arg14 : FVec F S3 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S3x40 .f32 := Host.absf main_arg1
  let main_cst_0 : FVec F S_ .f32 := constant S_ .f32 0x7F800000#32
  let main_v5 : FVec F S3x40 .f32 := broadcastInDim S3x40 ![] bcast_S_S3x40 main_cst_0
  let main_v6 : IVec S3x40 1 := cmpf .olt main_v4 main_v5
  let main_c_1 : IVec S_ 1 := constantI S_ 1 1#1
  let main_v7 : IVec S_ 1 := (fun x v => Host.reduce IntOp.andi x v reducesTo_S3x40_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_v14 : FVec F S40x40 .f32 := Host.absf main_arg3
  let main_cst_4 : FVec F S_ .f32 := constant S_ .f32 0x7F800000#32
  let main_v15 : FVec F S40x40 .f32 := broadcastInDim S40x40 ![] bcast_S_S40x40 main_cst_4
  let main_v16 : IVec S40x40 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2097152x3 : Shape := ⟨2, ![2097152, 3]⟩
abbrev S3x40 : Shape := ⟨2, ![3, 40]⟩
abbrev S40 : Shape := ⟨1, ![40]⟩
abbrev S40x40 : Shape := ⟨2, ![40, 40]⟩
abbrev S40x3 : Shape := ⟨2, ![40, 3]⟩
abbrev S3 : Shape := ⟨1, ![3]⟩
abbrev S3x2097152 : Shape := ⟨2, ![3, 2097152]⟩
abbrev S40x1 : Shape := ⟨2, ![40, 1]⟩
abbrev S3x1 : Shape := ⟨2, ![3, 1]⟩
abbrev S3x32768 : Shape := ⟨2, ![3, 32768]⟩
abbrev S40x32768 : Shape := ⟨2, ![40, 32768]⟩

abbrev nBuf : Space → Nat
  | .hbm => 39
  | .vmem => 18
  | .smem => 0
  | _ => 0

abbrev bufTy : (tb : Table) → Fin (tcTables nBuf tb) → BufTy
  | .hbm, ⟨0, _⟩ => ⟨S2097152x3, .f32⟩
  | .hbm, ⟨1, _⟩ => ⟨S3x40, .f32⟩
  | .hbm, ⟨2, _⟩ => ⟨S40, .f32⟩
  | .hbm, ⟨3, _⟩ => ⟨S40x40, .f32⟩
  | .hbm, ⟨4, _⟩ => ⟨S40, .f32⟩
  | .hbm, ⟨5, _⟩ => ⟨S40x40, .f32⟩
  | .hbm, ⟨6, _⟩ => ⟨S40, .f32⟩
  | .hbm, ⟨7, _⟩ => ⟨S40x40, .f32⟩
  | .hbm, ⟨8, _⟩ => ⟨S40, .f32⟩
  | .hbm, ⟨9, _⟩ => ⟨S40x40, .f32⟩
  | .hbm, ⟨10, _⟩ => ⟨S40, .f32⟩
  | .hbm, ⟨11, _⟩ => ⟨S40x40, .f32⟩
  | .hbm, ⟨12, _⟩ => ⟨S40, .f32⟩
  | .hbm, ⟨13, _⟩ => ⟨S40x3, .f32⟩
  | .hbm, ⟨14, _⟩ => ⟨S3, .f32⟩
  | .hbm, ⟨15, _⟩ => ⟨S3x2097152, .f32⟩
  | .hbm, ⟨16, _⟩ => ⟨S40x3, .f32⟩
  | .hbm, ⟨17, _⟩ => ⟨S40x3, .bf16⟩
  | .hbm, ⟨18, _⟩ => ⟨S40x40, .f32⟩
  | .hbm, ⟨19, _⟩ => ⟨S40x40, .bf16⟩
  | .hbm, ⟨20, _⟩ => ⟨S40x40, .f32⟩
  | .hbm, ⟨21, _⟩ => ⟨S40x40, .bf16⟩
  | .hbm, ⟨22, _⟩ => ⟨S40x40, .f32⟩
  | .hbm, ⟨23, _⟩ => ⟨S40x40, .bf16⟩
  | .hbm, ⟨24, _⟩ => ⟨S40x40, .f32⟩
  | .hbm, ⟨25, _⟩ => ⟨S40x40, .bf16⟩
  | .hbm, ⟨26, _⟩ => ⟨S40x40, .f32⟩
  | .hbm, ⟨27, _⟩ => ⟨S40x40, .bf16⟩
  | .hbm, ⟨28, _⟩ => ⟨S3x40, .f32⟩
  | .hbm, ⟨29, _⟩ => ⟨S3x40, .bf16⟩
  | .hbm, ⟨30, _⟩ => ⟨S40x1, .f32⟩
  | .hbm, ⟨31, _⟩ => ⟨S40x1, .f32⟩
  | .hbm, ⟨32, _⟩ => ⟨S40x1, .f32⟩
  | .hbm, ⟨33, _⟩ => ⟨S40x1, .f32⟩
  | .hbm, ⟨34, _⟩ => ⟨S40x1, .f32⟩
  | .hbm, ⟨35, _⟩ => ⟨S40x1, .f32⟩
  | .hbm, ⟨36, _⟩ => ⟨S3x1, .f32⟩
  | .hbm, ⟨37, _⟩ => ⟨S3x2097152, .f32⟩
  | .hbm, ⟨38, _⟩ => ⟨S2097152x3, .f32⟩
  | .local _ .vmem, ⟨0, _⟩ => ⟨S3x32768, .f32⟩
  | .local _ .vmem, ⟨1, _⟩ => ⟨S3x32768, .f32⟩
  | .local _ .vmem, ⟨2, _⟩ => ⟨S40x3, .bf16⟩
  | .local _ .vmem, ⟨3, _⟩ => ⟨S40x1, .f32⟩
  | .local _ .vmem, ⟨4, _⟩ => ⟨S40x40, .bf16⟩
  | .local _ .vmem, ⟨5, _⟩ => ⟨S40x1, .f32⟩
  | .local _ .vmem, ⟨6, _⟩ => ⟨S40x40, .bf16⟩
  | .local _ .vmem, ⟨7, _⟩ => ⟨S40x1, .f32⟩
  | .local _ .vmem, ⟨8, _⟩ => ⟨S40x40, .bf16⟩
  | .local _ .vmem, ⟨9, _⟩ => ⟨S40x1, .f32⟩
  | .local _ .vmem, ⟨10, _⟩ => ⟨S40x40, .bf16⟩
  | .local _ .vmem, ⟨11, _⟩ => ⟨S40x1, .f32⟩
  | .local _ .vmem, ⟨12, _⟩ => ⟨S40x40, .bf16⟩
  | .local _ .vmem, ⟨13, _⟩ => ⟨S40x1, .f32⟩
  | .local _ .vmem, ⟨14, _⟩ => ⟨S3x40, .bf16⟩
  | .local _ .vmem, ⟨15, _⟩ => ⟨S3x1, .f32⟩
  | .local _ .vmem, ⟨16, _⟩ => ⟨S3x32768, .f32⟩
  | .local _ .vmem, ⟨17, _⟩ => ⟨S3x32768, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x40 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x40 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S40x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40x40 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S40x40 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S40x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S40x40 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S40x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x40 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S3x32768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S2097152x3_S3x2097152_1_0 : S2097152x3.Transposes [1, 0] S3x2097152
  transposes_S3x40_S40x3_1_0 : S3x40.Transposes [1, 0] S40x3
  bitsLt_bf16_f32 : FTy.bits .bf16 < FTy.bits .f32
  transposes_S40x40_S40x40_1_0 : S40x40.Transposes [1, 0] S40x40
  transposes_S40x3_S3x40_1_0 : S40x3.Transposes [1, 0] S3x40
  shapeCasts_S40_S40x1 : S40.ShapeCasts S40x1
  shapeCasts_S3_S3x1 : S3.ShapeCasts S3x1
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  inb_S40x3_S40x3_0_0 : ∀ a, (![0, 0] : Fin 2 → Nat) a + S40x3.size a ≤ S40x3.size a
  h_S40x3 : 0 < S40x3.numel
  shapeCasts_S40x3_S40x3 : S40x3.ShapeCasts S40x3
  inb_S40x1_S40x1_0_0 : ∀ a, (![0, 0] : Fin 2 → Nat) a + S40x1.size a ≤ S40x1.size a
  h_S40x1 : 0 < S40x1.numel
  shapeCasts_S40x1_S40x1 : S40x1.ShapeCasts S40x1
  broadcasts_S40x1_S40x32768 : S40x1.Broadcasts S40x32768
  inb_S40x40_S40x40_0_0 : ∀ a, (![0, 0] : Fin 2 → Nat) a + S40x40.size a ≤ S40x40.size a
  h_S40x40 : 0 < S40x40.numel
  shapeCasts_S40x40_S40x40 : S40x40.ShapeCasts S40x40
  inb_S3x40_S3x40_0_0 : ∀ a, (![0, 0] : Fin 2 → Nat) a + S3x40.size a ≤ S3x40.size a
  h_S3x40 : 0 < S3x40.numel
  shapeCasts_S3x40_S3x40 : S3x40.ShapeCasts S3x40
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x32768 : S3x1.Broadcasts S3x32768
  transposes_S3x2097152_S2097152x3_1_0 : S3x2097152.Transposes [1, 0] S2097152x3
  dot_S40x3_S3x32768_S40x32768_1_0_0_1_n_n_wf : DotDims.WF S40x3 S3x32768 S40x32768 [1] [0] [0] [1] [] []
  dot_S40x40_S40x32768_S40x32768_1_0_0_1_n_n_wf : DotDims.WF S40x40 S40x32768 S40x32768 [1] [0] [0] [1] [] []
  dot_S3x40_S40x32768_S3x32768_1_0_0_1_n_n_wf : DotDims.WF S3x40 S40x32768 S3x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32768.size a ≤ S3x2097152.size a
  hwx0_0 : ∀ i : grid0.Coords, EltTy.bits .f32 = 32 ∨ (Rect.block (s := S3x2097152) S3x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x3.size a ≤ S40x3.size a
  hwx0_1 : ∀ i : grid0.Coords, EltTy.bits .bf16 = 32 ∨ (Rect.block (s := S40x3) S40x3.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x1.size a ≤ S40x1.size a
  hwx0_2 : ∀ i : grid0.Coords, EltTy.bits .f32 = 32 ∨ (Rect.block (s := S40x1) S40x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x40.size a ≤ S40x40.size a
  hwx0_3 : ∀ i : grid0.Coords, EltTy.bits .bf16 = 32 ∨ (Rect.block (s := S40x40) S40x40.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40x1.size a ≤ S40x1.size a
  hwx0_4 : ∀ i : grid0.Coords, EltTy.bits .f32 = 32 ∨ (Rect.block (s := S40x1) S40x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S40x40.size a ≤ S40x40.size a
  hwx0_5 : ∀ i : grid0.Coords, EltTy.bits .bf16 = 32 ∨ (Rect.block (s := S40x40) S40x40.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S40x1.size a ≤ S40x1.size a
  hwx0_6 : ∀ i : grid0.Coords, EltTy.bits .f32 = 32 ∨ (Rect.block (s := S40x1) S40x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S40x40.size a ≤ S40x40.size a
  hwx0_7 : ∀ i : grid0.Coords, EltTy.bits .bf16 = 32 ∨ (Rect.block (s := S40x40) S40x40.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S40x1.size a ≤ S40x1.size a
  hwx0_8 : ∀ i : grid0.Coords, EltTy.bits .f32 = 32 ∨ (Rect.block (s := S40x1) S40x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S40x40.size a ≤ S40x40.size a
  hwx0_9 : ∀ i : grid0.Coords, EltTy.bits .bf16 = 32 ∨ (Rect.block (s := S40x40) S40x40.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S40x1.size a ≤ S40x1.size a
  hwx0_10 : ∀ i : grid0.Coords, EltTy.bits .f32 = 32 ∨ (Rect.block (s := S40x1) S40x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S40x40.size a ≤ S40x40.size a
  hwx0_11 : ∀ i : grid0.Coords, EltTy.bits .bf16 = 32 ∨ (Rect.block (s := S40x40) S40x40.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S40x1.size a ≤ S40x1.size a
  hwx0_12 : ∀ i : grid0.Coords, EltTy.bits .f32 = 32 ∨ (Rect.block (s := S40x1) S40x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3x40.size a ≤ S3x40.size a
  hwx0_13 : ∀ i : grid0.Coords, EltTy.bits .bf16 = 32 ∨ (Rect.block (s := S3x40) S3x40.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S3x1.size a ≤ S3x1.size a
  hwx0_14 : ∀ i : grid0.Coords, EltTy.bits .f32 = 32 ∨ (Rect.block (s := S3x1) S3x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S3x32768.size a ≤ S3x2097152.size a
  hwx0_15 : ∀ i : grid0.Coords, EltTy.bits .f32 = 32 ∨ (Rect.block (s := S3x2097152) S3x32768.size (cc0_transform_15 i) (hinb0_15 i)).WholeWords (EltTy.packing .f32)

variable [Facts₀]

def dot_S40x3_S3x32768_S40x32768_1_0_0_1_n_n : DotDims S40x3 S3x32768 S40x32768 where
  lhsContracting := [1]
  rhsContracting := [0]
  lhsNonContracting := [0]
  rhsNonContracting := [1]
  lhsBatch := []
  rhsBatch := []
  wf := dot_S40x3_S3x32768_S40x32768_1_0_0_1_n_n_wf
def dot_S40x40_S40x32768_S40x32768_1_0_0_1_n_n : DotDims S40x40 S40x32768 S40x32768 where
  lhsContracting := [1]
  rhsContracting := [0]
  lhsNonContracting := [0]
  rhsNonContracting := [1]
  lhsBatch := []
  rhsBatch := []
  wf := dot_S40x40_S40x32768_S40x32768_1_0_0_1_n_n_wf
def dot_S3x40_S40x32768_S3x32768_1_0_0_1_n_n : DotDims S3x40 S40x32768 S3x32768 where
  lhsContracting := [1]
  rhsContracting := [0]
  lhsNonContracting := [0]
  rhsNonContracting := [1]
  lhsBatch := []
  rhsBatch := []
  wf := dot_S3x40_S40x32768_S3x32768_1_0_0_1_n_n_wf

abbrev win0_0 : Pipeline.Window sig grid0 :=
  Pipeline.Window.ofSpec (Memref.whole main_v0) S3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S40x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S40x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S40x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S40x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S40x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S40x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S40x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S40x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S40x40.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S40x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S40x40.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S40x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S3x40.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v21) S3x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v22) S3x32768.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S3x40 : Shape := ⟨2, ![3, 40]⟩
abbrev S40 : Shape := ⟨1, ![40]⟩
abbrev S40x40 : Shape := ⟨2, ![40, 40]⟩
abbrev S40x3 : Shape := ⟨2, ![40, 3]⟩
abbrev S3 : Shape := ⟨1, ![3]⟩
abbrev S2097152x40 : Shape := ⟨2, ![2097152, 40]⟩
abbrev S1x40 : Shape := ⟨2, ![1, 40]⟩
abbrev S1x3 : Shape := ⟨2, ![1, 3]⟩

abbrev nBuf : Space → Nat
  | .hbm => 49
  | .vmem => 0
  | .smem => 0
  | _ => 0

abbrev bufTy : (tb : Table) → Fin (tcTables nBuf tb) → BufTy
  | .hbm, ⟨0, _⟩ => ⟨S2097152x3, .f32⟩
  | .hbm, ⟨1, _⟩ => ⟨S3x40, .f32⟩
  | .hbm, ⟨2, _⟩ => ⟨S40, .f32⟩
  | .hbm, ⟨3, _⟩ => ⟨S40x40, .f32⟩
  | .hbm, ⟨4, _⟩ => ⟨S40, .f32⟩
  | .hbm, ⟨5, _⟩ => ⟨S40x40, .f32⟩
  | .hbm, ⟨6, _⟩ => ⟨S40, .f32⟩
  | .hbm, ⟨7, _⟩ => ⟨S40x40, .f32⟩
  | .hbm, ⟨8, _⟩ => ⟨S40, .f32⟩
  | .hbm, ⟨9, _⟩ => ⟨S40x40, .f32⟩
  | .hbm, ⟨10, _⟩ => ⟨S40, .f32⟩
  | .hbm, ⟨11, _⟩ => ⟨S40x40, .f32⟩
  | .hbm, ⟨12, _⟩ => ⟨S40, .f32⟩
  | .hbm, ⟨13, _⟩ => ⟨S40x3, .f32⟩
  | .hbm, ⟨14, _⟩ => ⟨S3, .f32⟩
  | .hbm, ⟨15, _⟩ => ⟨S2097152x40, .f32⟩
  | .hbm, ⟨16, _⟩ => ⟨S1x40, .f32⟩
  | .hbm, ⟨17, _⟩ => ⟨S2097152x40, .f32⟩
  | .hbm, ⟨18, _⟩ => ⟨S2097152x40, .f32⟩
  | .hbm, ⟨19, _⟩ => ⟨S2097152x40, .f32⟩
  | .hbm, ⟨20, _⟩ => ⟨S2097152x40, .f32⟩
  | .hbm, ⟨21, _⟩ => ⟨S1x40, .f32⟩
  | .hbm, ⟨22, _⟩ => ⟨S2097152x40, .f32⟩
  | .hbm, ⟨23, _⟩ => ⟨S2097152x40, .f32⟩
  | .hbm, ⟨24, _⟩ => ⟨S2097152x40, .f32⟩
  | .hbm, ⟨25, _⟩ => ⟨S2097152x40, .f32⟩
  | .hbm, ⟨26, _⟩ => ⟨S1x40, .f32⟩
  | .hbm, ⟨27, _⟩ => ⟨S2097152x40, .f32⟩
  | .hbm, ⟨28, _⟩ => ⟨S2097152x40, .f32⟩
  | .hbm, ⟨29, _⟩ => ⟨S2097152x40, .f32⟩
  | .hbm, ⟨30, _⟩ => ⟨S2097152x40, .f32⟩
  | .hbm, ⟨31, _⟩ => ⟨S1x40, .f32⟩
  | .hbm, ⟨32, _⟩ => ⟨S2097152x40, .f32⟩
  | .hbm, ⟨33, _⟩ => ⟨S2097152x40, .f32⟩
  | .hbm, ⟨34, _⟩ => ⟨S2097152x40, .f32⟩
  | .hbm, ⟨35, _⟩ => ⟨S2097152x40, .f32⟩
  | .hbm, ⟨36, _⟩ => ⟨S1x40, .f32⟩
  | .hbm, ⟨37, _⟩ => ⟨S2097152x40, .f32⟩
  | .hbm, ⟨38, _⟩ => ⟨S2097152x40, .f32⟩
  | .hbm, ⟨39, _⟩ => ⟨S2097152x40, .f32⟩
  | .hbm, ⟨40, _⟩ => ⟨S2097152x40, .f32⟩
  | .hbm, ⟨41, _⟩ => ⟨S1x40, .f32⟩
  | .hbm, ⟨42, _⟩ => ⟨S2097152x40, .f32⟩
  | .hbm, ⟨43, _⟩ => ⟨S2097152x40, .f32⟩
  | .hbm, ⟨44, _⟩ => ⟨S2097152x40, .f32⟩
  | .hbm, ⟨45, _⟩ => ⟨S2097152x3, .f32⟩
  | .hbm, ⟨46, _⟩ => ⟨S1x3, .f32⟩
  | .hbm, ⟨47, _⟩ => ⟨S2097152x3, .f32⟩
  | .hbm, ⟨48, _⟩ => ⟨S2097152x3, .f32⟩
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S40_S1x40_1 : S40.BroadcastsInDim S1x40 (![1] : Fin 1 → Fin S1x40.rank)
  bcast_S1x40_S2097152x40_0_1 : S1x40.BroadcastsInDim S2097152x40 (![0, 1] : Fin 2 → Fin S2097152x40.rank)
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  dot_S2097152x3_S3x40_S2097152x40_1_0_0_1_n_n_wf : DotDims.WF S2097152x3 S3x40 S2097152x40 [1] [0] [0] [1] [] []
  dot_S2097152x40_S40x40_S2097152x40_1_0_0_1_n_n_wf : DotDims.WF S2097152x40 S40x40 S2097152x40 [1] [0] [0] [1] [] []
  dot_S2097152x40_S40x3_S2097152x3_1_0_0_1_n_n_wf : DotDims.WF S2097152x40 S40x3 S2097152x3 [1] [0] [0] [1] [] []

variable [Facts₀]

def dot_S2097152x3_S3x40_S2097152x40_1_0_0_1_n_n : DotDims S2097152x3 S3x40 S2097152x40 where
  lhsContracting := [1]
  rhsContracting := [0]
  lhsNonContracting := [0]
  rhsNonContracting := [1]
  lhsBatch := []
  rhsBatch := []
  wf := dot_S2097152x3_S3x40_S2097152x40_1_0_0_1_n_n_wf
def dot_S2097152x40_S40x40_S2097152x40_1_0_0_1_n_n : DotDims S2097152x40 S40x40 S2097152x40 where
  lhsContracting := [1]
  rhsContracting := [0]
  lhsNonContracting := [0]
  rhsNonContracting := [1]
  lhsBatch := []
  rhsBatch := []
  wf := dot_S2097152x40_S40x40_S2097152x40_1_0_0_1_n_n_wf
def dot_S2097152x40_S40x3_S2097152x3_1_0_0_1_n_n : DotDims S2097152x40 S40x3 S2097152x3 where
  lhsContracting := [1]
  rhsContracting := [0]
  lhsNonContracting := [0]
  rhsNonContracting := [1]
  lhsBatch := []
  rhsBatch := []
  wf := dot_S2097152x40_S40x3_S2097152x3_1_0_0_1_n_n_wf

class Facts : Prop extends Facts₀ where

variable [Facts]
-- ==== Proof.Net.lean ====
/-
  The mathematics both programs compute, stated once over plain functions on finite index sets.

  A coordinate network: six hidden layers `x ↦ tanh (x · W + b)` of width 40 and an affine read-out, applied to every
  point (row) of the input independently. On the extended reals a layer's entry is a finite sum of products plus a bias;
  the hyperbolic tangent is the extended-real one (`tanh ⊥ = -1`, `tanh ⊤ = 1`). One program keeps points in rows and
  multiplies `x · W`; the other keeps points in columns and multiplies `Wᵀ · xᵀ`. The two differ only in the order of the
  two factors of every product, so the single law that joins them is commutativity of multiplication, which holds on
  all of `EReal` (no finiteness is used anywhere).
-/
import Idealize.ShloMosaic.PureOps.Ideal
import Idealize.ShloMosaic.Lib.ValueIdx

noncomputable section

open scoped BigOperators
open Idealize.ShloMosaic Idealize.ShloMosaic.ValueIdx

namespace Cert.Net

/-- One affine layer on a feature vector: entry `j` of `x · W + b`. -/
def affine {K J : ℕ} (W : Fin K → Fin J → EReal) (b : Fin J → EReal) (x : Fin K → EReal) : Fin J → EReal :=
  fun j => (∑ k : Fin K, x k * W k j) + b j

/-- The activation, entry by entry. -/
def act {J : ℕ} (x : Fin J → EReal) : Fin J → EReal := fun j => Ideal.tanh (x j)

/-- The same affine layer with the factors of each product in the other order (how a product `Wᵀ · xᵀ` presents it). -/
theorem affine_swap {K J : ℕ} (W : Fin K → Fin J → EReal) (b : Fin J → EReal) (x : Fin K → EReal) (j : Fin J) :
    (∑ k : Fin K, W k j * x k) + b j = affine W b x j := by
  unfold affine
  exact congrArg (· + b j) (Finset.sum_congr rfl fun k _ => mul_comm _ _)

/-- The network on one point: six activated layers, then the affine read-out. -/
def net (W0 : Fin 3 → Fin 40 → EReal) (b0 : Fin 40 → EReal) (W1 : Fin 40 → Fin 40 → EReal) (b1 : Fin 40 → EReal)
    (W2 : Fin 40 → Fin 40 → EReal) (b2 : Fin 40 → EReal) (W3 : Fin 40 → Fin 40 → EReal) (b3 : Fin 40 → EReal)
    (W4 : Fin 40 → Fin 40 → EReal) (b4 : Fin 40 → EReal) (W5 : Fin 40 → Fin 40 → EReal) (b5 : Fin 40 → EReal)
    (W6 : Fin 40 → Fin 3 → EReal) (b6 : Fin 3 → EReal) (x : Fin 3 → EReal) : Fin 3 → EReal :=
  affine W6 b6 (act (affine W5 b5 (act (affine W4 b4 (act (affine W3 b3 (act (affine W2 b2 (act (affine W1 b1
    (act (affine W0 b0 x))))))))))))

/-! ## Reading rows, columns, matrices and bias vectors out of arrays -/

/-- Row `n` of a rank-2 array (a point stored along a row). -/
def row {N K : ℕ} (X : (⟨2, ![N, K]⟩ : Shape).Idx → EReal) (n : Fin N) : Fin K → EReal := fun k => X (ix2 n k)
/-- Column `q` of a rank-2 array (a point stored along a column). -/
def col {K Q : ℕ} (X : (⟨2, ![K, Q]⟩ : Shape).Idx → EReal) (q : Fin Q) : Fin K → EReal := fun k => X (ix2 k q)
/-- A weight matrix stored `[fan_in, fan_out]`. -/
def mat {K J : ℕ} (W : (⟨2, ![K, J]⟩ : Shape).Idx → EReal) : Fin K → Fin J → EReal := fun k j => W (ix2 k j)
/-- The same matrix read out of its transpose, stored `[fan_out, fan_in]`. -/
def matT {K J : ℕ} (W : (⟨2, ![J, K]⟩ : Shape).Idx → EReal) : Fin K → Fin J → EReal := fun k j => W (ix2 j k)
/-- A bias stored as a rank-1 array. -/
def vec {J : ℕ} (b : (⟨1, ![J]⟩ : Shape).Idx → EReal) : Fin J → EReal := fun j => b (ix1 j)
/-- The same bias stored as a column `[fan_out, 1]`. -/
def vecC {J : ℕ} (b : (⟨2, ![J, 1]⟩ : Shape).Idx → EReal) : Fin J → EReal := fun j => b (ix2 j 0)

/-- The whole result: the network applied to each row of `coords`, laid out point-major `[points, 3]`. -/
def out (coords : (⟨2, ![2097152, 3]⟩ : Shape).Idx → EReal)
    (W0 : (⟨2, ![3, 40]⟩ : Shape).Idx → EReal) (b0 : (⟨1, ![40]⟩ : Shape).Idx → EReal)
    (W1 : (⟨2, ![40, 40]⟩ : Shape).Idx → EReal) (b1 : (⟨1, ![40]⟩ : Shape).Idx → EReal)
    (W2 : (⟨2, ![40, 40]⟩ : Shape).Idx → EReal) (b2 : (⟨1, ![40]⟩ : Shape).Idx → EReal)
    (W3 : (⟨2, ![40, 40]⟩ : Shape).Idx → EReal) (b3 : (⟨1, ![40]⟩ : Shape).Idx → EReal)
    (W4 : (⟨2, ![40, 40]⟩ : Shape).Idx → EReal) (b4 : (⟨1, ![40]⟩ : Shape).Idx → EReal)
    (W5 : (⟨2, ![40, 40]⟩ : Shape).Idx → EReal) (b5 : (⟨1, ![40]⟩ : Shape).Idx → EReal)
    (W6 : (⟨2, ![40, 3]⟩ : Shape).Idx → EReal) (b6 : (⟨1, ![3]⟩ : Shape).Idx → EReal) :
    (⟨2, ![2097152, 3]⟩ : Shape).Idx → EReal :=
  fun i => net (mat W0) (vec b0) (mat W1) (vec b1) (mat W2) (vec b2) (mat W3) (vec b3) (mat W4) (vec b4)
    (mat W5) (vec b5) (mat W6) (vec b6) (row coords (i 0)) (i 1)

end Cert.Net

end
-- ==== Proof.RefStages.lean ====
/-
  The reference program, stage by stage, is the network of `Net.lean` applied to each row of `coords`.

  The reference keeps one point per ROW. Each hidden stage is `tanh (X · W + b)` with the bias broadcast over the rows:
  entry `(n, j)` is `tanh (∑ k, X[n,k] · W[k,j] + b[j])`, which depends on row `n` of `X` only. So row `n` of every hidden
  stage is one activated affine layer of row `n` of the stage before, and row `n` of the result is the affine read-out of
  row `n` of the last hidden stage.
-/
import proofs.«420546_j52123723104357_3_alg».proof.Proof.Gen.ReferenceIdeal.Run
import proofs.«420546_j52123723104357_3_alg».proof.Proof.Gen.ReferenceIdeal.Read
import proofs.«420546_j52123723104357_3_alg».proof.Proof.Net

noncomputable section

open scoped BigOperators
open Idealize.ShloMosaic Idealize.ShloMosaic.ValueIdx
open Cert.ReferenceIdeal Cert.ReferenceIdeal.Read Cert.Net

namespace Cert.RefStages

variable (x0 : FVec Ideal S2097152x3 .f32) (x1 : FVec Ideal S3x40 .f32) (x2 : FVec Ideal S40 .f32)
  (x3 : FVec Ideal S40x40 .f32) (x4 : FVec Ideal S40 .f32) (x5 : FVec Ideal S40x40 .f32) (x6 : FVec Ideal S40 .f32)
  (x7 : FVec Ideal S40x40 .f32) (x8 : FVec Ideal S40 .f32) (x9 : FVec Ideal S40x40 .f32) (x10 : FVec Ideal S40 .f32)
  (x11 : FVec Ideal S40x40 .f32) (x12 : FVec Ideal S40 .f32) (x13 : FVec Ideal S40x3 .f32) (x14 : FVec Ideal S3 .f32)

/-- Row `n` of the first hidden stage: the first layer of row `n` of `coords`. -/
theorem hidden0 (n : Fin 2097152) :
    row (N := 2097152) (K := 40) (val_main_v4 (F := Ideal) x0 x1 x2) n = act (affine (mat x1) (vec x2) (row x0 n)) := by
  funext j
  show val_main_v4 (F := Ideal) x0 x1 x2 (ix2 n j) = _
  rw [val_main_v4_apply, val_main_v3_apply, val_main_v0_apply, val_main_v2_apply, val_main_v1_apply,
    show idx_main_v1 (idx_main_v2 (ix2 n j)) = ix1 j from eq_ix1 _]
  simp only [show ∀ k, lidx_main_v0 (ix2 n j) k = ix2 n k from fun k => eq_ix2 _,
    show ∀ k, ridx_main_v0 (ix2 n j) k = ix2 k j from fun k => eq_ix2 _]
  rfl

/-- Row `n` of the second hidden stage: the second layer of row `n` of the first. -/
theorem hidden1 (n : Fin 2097152) :
    row (N := 2097152) (K := 40) (val_main_v9 (F := Ideal) x0 x1 x2 x3 x4) n
      = act (affine (mat x3) (vec x4) (row (N := 2097152) (K := 40) (val_main_v4 (F := Ideal) x0 x1 x2) n)) := by
  funext j
  show val_main_v9 (F := Ideal) x0 x1 x2 x3 x4 (ix2 n j) = _
  rw [val_main_v9_apply, val_main_v8_apply, val_main_v5_apply, val_main_v7_apply, val_main_v6_apply,
    show idx_main_v6 (idx_main_v7 (ix2 n j)) = ix1 j from eq_ix1 _]
  simp only [show ∀ k, lidx_main_v5 (ix2 n j) k = ix2 n k from fun k => eq_ix2 _,
    show ∀ k, ridx_main_v5 (ix2 n j) k = ix2 k j from fun k => eq_ix2 _]
  rfl

/-- Row `n` of the third hidden stage. -/
theorem hidden2 (n : Fin 2097152) :
    row (N := 2097152) (K := 40) (val_main_v14 (F := Ideal) x0 x1 x2 x3 x4 x5 x6) n
      = act (affine (mat x5) (vec x6) (row (N := 2097152) (K := 40) (val_main_v9 (F := Ideal) x0 x1 x2 x3 x4) n)) := by
  funext j
  show val_main_v14 (F := Ideal) x0 x1 x2 x3 x4 x5 x6 (ix2 n j) = _
  rw [val_main_v14_apply, val_main_v13_apply, val_main_v10_apply, val_main_v12_apply, val_main_v11_apply,
    show idx_main_v11 (idx_main_v12 (ix2 n j)) = ix1 j from eq_ix1 _]
  simp only [show ∀ k, lidx_main_v10 (ix2 n j) k = ix2 n k from fun k => eq_ix2 _,
    show ∀ k, ridx_main_v10 (ix2 n j) k = ix2 k j from fun k => eq_ix2 _]
  rfl

/-- Row `n` of the fourth hidden stage. -/
theorem hidden3 (n : Fin 2097152) :
    row (N := 2097152) (K := 40) (val_main_v19 (F := Ideal) x0 x1 x2 x3 x4 x5 x6 x7 x8) n
      = act (affine (mat x7) (vec x8) (row (N := 2097152) (K := 40) (val_main_v14 (F := Ideal) x0 x1 x2 x3 x4 x5 x6) n)) := by
  funext j
  show val_main_v19 (F := Ideal) x0 x1 x2 x3 x4 x5 x6 x7 x8 (ix2 n j) = _
  rw [val_main_v19_apply, val_main_v18_apply, val_main_v15_apply, val_main_v17_apply, val_main_v16_apply,
    show idx_main_v16 (idx_main_v17 (ix2 n j)) = ix1 j from eq_ix1 _]
  simp only [show ∀ k, lidx_main_v15 (ix2 n j) k = ix2 n k from fun k => eq_ix2 _,
    show ∀ k, ridx_main_v15 (ix2 n j) k = ix2 k j from fun k => eq_ix2 _]
  rfl

/-- Row `n` of the fifth hidden stage. -/
theorem hidden4 (n : Fin 2097152) :
    row (N := 2097152) (K := 40) (val_main_v24 (F := Ideal) x0 x1 x2 x3 x4 x5 x6 x7 x8 x9 x10) n
      = act (affine (mat x9) (vec x10)
          (row (N := 2097152) (K := 40) (val_main_v19 (F := Ideal) x0 x1 x2 x3 x4 x5 x6 x7 x8) n)) := by
  funext j
  show val_main_v24 (F := Ideal) x0 x1 x2 x3 x4 x5 x6 x7 x8 x9 x10 (ix2 n j) = _
  rw [val_main_v24_apply, val_main_v23_apply, val_main_v20_apply, val_main_v22_apply, val_main_v21_apply,
    show idx_main_v21 (idx_main_v22 (ix2 n j)) = ix1 j from eq_ix1 _]
  simp only [show ∀ k, lidx_main_v20 (ix2 n j) k = ix2 n k from fun k => eq_ix2 _,
    show ∀ k, ridx_main_v20 (ix2 n j) k = ix2 k j from fun k => eq_ix2 _]
  rfl

/-- Row `n` of the sixth hidden stage. -/
theorem hidden5 (n : Fin 2097152) :
    row (N := 2097152) (K := 40) (val_main_v29 (F := Ideal) x0 x1 x2 x3 x4 x5 x6 x7 x8 x9 x10 x11 x12) n
      = act (affine (mat x11) (vec x12)
          (row (N := 2097152) (K := 40) (val_main_v24 (F := Ideal) x0 x1 x2 x3 x4 x5 x6 x7 x8 x9 x10) n)) := by
  funext j
  show val_main_v29 (F := Ideal) x0 x1 x2 x3 x4 x5 x6 x7 x8 x9 x10 x11 x12 (ix2 n j) = _
  rw [val_main_v29_apply, val_main_v28_apply, val_main_v25_apply, val_main_v27_apply, val_main_v26_apply,
    show idx_main_v26 (idx_main_v27 (ix2 n j)) = ix1 j from eq_ix1 _]
  simp only [show ∀ k, lidx_main_v25 (ix2 n j) k = ix2 n k from fun k => eq_ix2 _,
    show ∀ k, ridx_main_v25 (ix2 n j) k = ix2 k j from fun k => eq_ix2 _]
  rfl

/-- The reference's result is the network applied to each row of `coords`: the read-out of row `n` of the last hidden
    stage, and each hidden stage's row unfolded down to the input's. -/
theorem result_eq :
    val_main_v33 (F := Ideal) x0 x1 x2 x3 x4 x5 x6 x7 x8 x9 x10 x11 x12 x13 x14
      = Net.out x0 x1 x2 x3 x4 x5 x6 x7 x8 x9 x10 x11 x12 x13 x14 := by
  funext i
  obtain ⟨n, j, rfl⟩ : ∃ (n : Fin 2097152) (j : Fin 3), i = ix2 n j := ⟨i 0, i 1, eq_ix2 i⟩
  rw [val_main_v33_apply, val_main_v30_apply, val_main_v32_apply, val_main_v31_apply,
    show idx_main_v31 (idx_main_v32 (ix2 n j)) = ix1 j from eq_ix1 _]
  simp only [show ∀ k, lidx_main_v30 (ix2 n j) k = ix2 n k from fun k => eq_ix2 _,
    show ∀ k, ridx_main_v30 (ix2 n j) k = ix2 k j from fun k => eq_ix2 _]
  show affine (mat x13) (vec x14)
    (row (N := 2097152) (K := 40) (val_main_v29 (F := Ideal) x0 x1 x2 x3 x4 x5 x6 x7 x8 x9 x10 x11 x12) n) j = _
  rw [hidden5, hidden4, hidden3, hidden2, hidden1, hidden0]
  rfl

end Cert.RefStages

end
-- ==== Proof.KernelLayers.lean ====
/-
  The kernel's arithmetic at one point of one block is the network of `Net.lean` on one COLUMN.

  The kernel keeps one point per column: a block of `coordsᵀ` is `[3, 32768]`, every hidden value `[40, 32768]`, and a
  layer is `Wᵀ · X + b` with the bias a column `[fan_out, 1]` broadcast along the lanes. Entry `(j, q)` of such a layer is
  `∑ k, Wᵀ[j,k] · X[k,q] + b[j,0]`: it depends on column `q` of `X` only, and is the affine layer of `Net.lean` on that
  column once the two factors of each product are swapped. Narrowing to bf16 between layers is the identity on the
  extended reals, and a shape cast to the same shape is the identity.
-/
import proofs.«420546_j52123723104357_3_alg».proof.Proof.Gen.KernelIdeal.Skeleton
import proofs.«420546_j52123723104357_3_alg».proof.Proof.Net
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx
open Cert.KernelIdeal Cert.KernelIdeal.Gen Cert.Net

namespace Cert.KernelLayers

/-! ## A matrix product into a zero accumulator, read at an entry -/

/-- For dimension numbers that contract the left operand's axis 1 with the right operand's axis 0 (stated by the four
    coordinate facts), the product of `A : [J, K]` and `B : [K, Q]` accumulated into zero is, at `(j, q)`,
    `∑ k, A[j,k] · B[k,q]`. -/
theorem matmul_zero_at (J K Q : ℕ) {φ₁ φ₂ : FTy}
    (D : DotDims ⟨2, ![J, K]⟩ ⟨2, ![K, Q]⟩ ⟨2, ![J, Q]⟩) (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![J, K]⟩ φ₁) (B : FVec Ideal ⟨2, ![K, Q]⟩ φ₂)
    (j : Fin J) (q : Fin Q) :
    FloatOps.matmul D prec A B (constant ⟨2, ![J, Q]⟩ .f32 0x00000000#32) (ix2 j q)
      = ∑ k : Fin K, A (ix2 j k) * B (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 j q) ((contrEquiv1 D K hr hs).symm k) = ix2 j k := funext fun a => Fin.ext (by
    match a with
    | ⟨0, _⟩ => exact hl0 _ _
    | ⟨1, _⟩ => exact (hl1 _ _).trans hk)
  have er : D.rhsIdx (ix2 j q) ((contrEquiv1 D K hr hs).symm k) = ix2 k q := funext fun a => Fin.ext (by
    match a with
    | ⟨0, _⟩ => exact (hr0 _ _).trans hk
    | ⟨1, _⟩ => exact hr1 _ _)
  rw [el, er]

/-- One layer before its activation, read at `(j, q)`: the affine layer of column `q`. -/
theorem preact_at (J K Q : ℕ) {φ₁ φ₂ : FTy}
    (D : DotDims ⟨2, ![J, K]⟩ ⟨2, ![K, Q]⟩ ⟨2, ![J, Q]⟩) (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hJ : J ≠ 1)
    (W : FVec Ideal ⟨2, ![J, K]⟩ φ₁) (b : FVec Ideal ⟨2, ![J, 1]⟩ .f32) (X : FVec Ideal ⟨2, ![K, Q]⟩ φ₂)
    (hW : (⟨2, ![J, K]⟩ : Shape).ShapeCasts ⟨2, ![J, K]⟩) (hb : (⟨2, ![J, 1]⟩ : Shape).ShapeCasts ⟨2, ![J, 1]⟩)
    (hbc : (⟨2, ![J, 1]⟩ : Shape).Broadcasts ⟨2, ![J, Q]⟩) (j : Fin J) (q : Fin Q) :
    addf (matmul D none (shapeCast ⟨2, ![J, K]⟩ W hW) X (constant ⟨2, ![J, Q]⟩ .f32 0x00000000#32))
        (broadcastTo ⟨2, ![J, Q]⟩ (shapeCast ⟨2, ![J, 1]⟩ b hb) hbc) (ix2 j q)
      = affine (matT W) (vecC b) (col X q) j := by
  rw [shapeCast_self, shapeCast_self]
  show FloatOps.matmul D none W X (constant ⟨2, ![J, Q]⟩ .f32 0x00000000#32) (ix2 j q)
      + broadcastTo ⟨2, ![J, Q]⟩ b hbc (ix2 j q) = _
  rw [matmul_zero_at J K Q D hr hs hl0 hl1 hr0 hr1,
    broadcastTo_apply b hbc (ix2 j q) (ix2 j (0 : Fin 1)) (fun a => match a with
      | ⟨0, _⟩ => by show j.val = if J = 1 then 0 else j.val; rw [if_neg hJ]
      | ⟨1, _⟩ => by show (0 : ℕ) = if (1 : ℕ) = 1 then 0 else q.val; rw [if_pos rfl])]
  exact affine_swap (matT W) (vecC b) (col X q) j

/-! ## The kernel's three dimension-number records -/

theorem lhs_first_0 (i : S40x32768.Idx) (q : dot_S40x3_S3x32768_S40x32768_1_0_0_1_n_n.contr.Idx) : (dot_S40x3_S3x32768_S40x32768_1_0_0_1_n_n.lhsIdx i q 0).val = (i 0).val := by
  unfold DotDims.lhsIdx
  rw [dif_neg (show ¬(0 : Fin S40x3.rank) ∈ dot_S40x3_S3x32768_S40x32768_1_0_0_1_n_n.lhsBatch by decide), dif_pos (show (0 : Fin S40x3.rank) ∈ dot_S40x3_S3x32768_S40x32768_1_0_0_1_n_n.lhsNonContracting by decide)]
  rfl
theorem lhs_first_1 (i : S40x32768.Idx) (q : dot_S40x3_S3x32768_S40x32768_1_0_0_1_n_n.contr.Idx) : (dot_S40x3_S3x32768_S40x32768_1_0_0_1_n_n.lhsIdx i q 1).val = (q ⟨0, by decide⟩).val :=
  dot_S40x3_S3x32768_S40x32768_1_0_0_1_n_n.lhsIdx_val_of_single rfl i q
theorem rhs_first_0 (i : S40x32768.Idx) (q : dot_S40x3_S3x32768_S40x32768_1_0_0_1_n_n.contr.Idx) : (dot_S40x3_S3x32768_S40x32768_1_0_0_1_n_n.rhsIdx i q 0).val = (q ⟨0, by decide⟩).val :=
  dot_S40x3_S3x32768_S40x32768_1_0_0_1_n_n.rhsIdx_val_of_single rfl i q
theorem rhs_first_1 (i : S40x32768.Idx) (q : dot_S40x3_S3x32768_S40x32768_1_0_0_1_n_n.contr.Idx) : (dot_S40x3_S3x32768_S40x32768_1_0_0_1_n_n.rhsIdx i q 1).val = (i 1).val := by
  unfold DotDims.rhsIdx
  rw [dif_neg (show ¬(1 : Fin S3x32768.rank) ∈ dot_S40x3_S3x32768_S40x32768_1_0_0_1_n_n.rhsBatch by decide), dif_pos (show (1 : Fin S3x32768.rank) ∈ dot_S40x3_S3x32768_S40x32768_1_0_0_1_n_n.rhsNonContracting by decide)]
  rfl

theorem lhs_mid_0 (i : S40x32768.Idx) (q : dot_S40x40_S40x32768_S40x32768_1_0_0_1_n_n.contr.Idx) : (dot_S40x40_S40x32768_S40x32768_1_0_0_1_n_n.lhsIdx i q 0).val = (i 0).val := by
  unfold DotDims.lhsIdx
  rw [dif_neg (show ¬(0 : Fin S40x40.rank) ∈ dot_S40x40_S40x32768_S40x32768_1_0_0_1_n_n.lhsBatch by decide), dif_pos (show (0 : Fin S40x40.rank) ∈ dot_S40x40_S40x32768_S40x32768_1_0_0_1_n_n.lhsNonContracting by decide)]
  rfl
theorem lhs_mid_1 (i : S40x32768.Idx) (q : dot_S40x40_S40x32768_S40x32768_1_0_0_1_n_n.contr.Idx) : (dot_S40x40_S40x32768_S40x32768_1_0_0_1_n_n.lhsIdx i q 1).val = (q ⟨0, by decide⟩).val :=
  dot_S40x40_S40x32768_S40x32768_1_0_0_1_n_n.lhsIdx_val_of_single rfl i q
theorem rhs_mid_0 (i : S40x32768.Idx) (q : dot_S40x40_S40x32768_S40x32768_1_0_0_1_n_n.contr.Idx) : (dot_S40x40_S40x32768_S40x32768_1_0_0_1_n_n.rhsIdx i q 0).val = (q ⟨0, by decide⟩).val :=
  dot_S40x40_S40x32768_S40x32768_1_0_0_1_n_n.rhsIdx_val_of_single rfl i q
theorem rhs_mid_1 (i : S40x32768.Idx) (q : dot_S40x40_S40x32768_S40x32768_1_0_0_1_n_n.contr.Idx) : (dot_S40x40_S40x32768_S40x32768_1_0_0_1_n_n.rhsIdx i q 1).val = (i 1).val := by
  unfold DotDims.rhsIdx
  rw [dif_neg (show ¬(1 : Fin S40x32768.rank) ∈ dot_S40x40_S40x32768_S40x32768_1_0_0_1_n_n.rhsBatch by decide), dif_pos (show (1 : Fin S40x32768.rank) ∈ dot_S40x40_S40x32768_S40x32768_1_0_0_1_n_n.rhsNonContracting by decide)]
  rfl

theorem lhs_last_0 (i : S3x32768.Idx) (q : dot_S3x40_S40x32768_S3x32768_1_0_0_1_n_n.contr.Idx) : (dot_S3x40_S40x32768_S3x32768_1_0_0_1_n_n.lhsIdx i q 0).val = (i 0).val := by
  unfold DotDims.lhsIdx
  rw [dif_neg (show ¬(0 : Fin S3x40.rank) ∈ dot_S3x40_S40x32768_S3x32768_1_0_0_1_n_n.lhsBatch by decide), dif_pos (show (0 : Fin S3x40.rank) ∈ dot_S3x40_S40x32768_S3x32768_1_0_0_1_n_n.lhsNonContracting by decide)]
  rfl
theorem lhs_last_1 (i : S3x32768.Idx) (q : dot_S3x40_S40x32768_S3x32768_1_0_0_1_n_n.contr.Idx) : (dot_S3x40_S40x32768_S3x32768_1_0_0_1_n_n.lhsIdx i q 1).val = (q ⟨0, by decide⟩).val :=
  dot_S3x40_S40x32768_S3x32768_1_0_0_1_n_n.lhsIdx_val_of_single rfl i q
theorem rhs_last_0 (i : S3x32768.Idx) (q : dot_S3x40_S40x32768_S3x32768_1_0_0_1_n_n.contr.Idx) : (dot_S3x40_S40x32768_S3x32768_1_0_0_1_n_n.rhsIdx i q 0).val = (q ⟨0, by decide⟩).val :=
  dot_S3x40_S40x32768_S3x32768_1_0_0_1_n_n.rhsIdx_val_of_single rfl i q
theorem rhs_last_1 (i : S3x32768.Idx) (q : dot_S3x40_S40x32768_S3x32768_1_0_0_1_n_n.contr.Idx) : (dot_S3x40_S40x32768_S3x32768_1_0_0_1_n_n.rhsIdx i q 1).val = (i 1).val := by
  unfold DotDims.rhsIdx
  rw [dif_neg (show ¬(1 : Fin S40x32768.rank) ∈ dot_S3x40_S40x32768_S3x32768_1_0_0_1_n_n.rhsBatch by decide), dif_pos (show (1 : Fin S40x32768.rank) ∈ dot_S3x40_S40x32768_S3x32768_1_0_0_1_n_n.rhsNonContracting by decide)]
  rfl

/-! ## Column `q` of each kind of layer -/

/-- Column `q` of the first hidden layer (fan-in 3), activated and narrowed. -/
theorem first_col (W : Vec Ideal S40x3 .bf16) (b : Vec Ideal S40x1 .f32) (X : FVec Ideal S3x32768 .bf16)
    (hW : S40x3.ShapeCasts S40x3) (hb : S40x1.ShapeCasts S40x1) (hbc : S40x1.Broadcasts S40x32768)
    (ht : FTy.bits .bf16 < FTy.bits .f32) (q : Fin 32768) :
    col (K := 40) (Q := 32768) (truncf .bf16 (tanh (addf (matmul (φ₁ := .bf16) (φ₂ := .bf16) dot_S40x3_S3x32768_S40x32768_1_0_0_1_n_n none (shapeCast S40x3 W hW) X
        (constant S40x32768 .f32 0x00000000#32)) (broadcastTo S40x32768 (shapeCast S40x1 b hb) hbc))) ht) q
      = act (affine (matT W) (vecC b) (col (K := 3) (Q := 32768) X q)) :=
  funext fun j => congrArg Ideal.tanh (preact_at 40 3 32768 dot_S40x3_S3x32768_S40x32768_1_0_0_1_n_n rfl rfl lhs_first_0 lhs_first_1 rhs_first_0 rhs_first_1
    (by decide) W b X hW hb hbc j q)

/-- Column `q` of a hidden layer of fan-in 40, activated and narrowed. -/
theorem mid_col (W : Vec Ideal S40x40 .bf16) (b : Vec Ideal S40x1 .f32) (X : FVec Ideal S40x32768 .bf16)
    (hW : S40x40.ShapeCasts S40x40) (hb : S40x1.ShapeCasts S40x1) (hbc : S40x1.Broadcasts S40x32768)
    (ht : FTy.bits .bf16 < FTy.bits .f32) (q : Fin 32768) :
    col (K := 40) (Q := 32768) (truncf .bf16 (tanh (addf (matmul (φ₁ := .bf16) (φ₂ := .bf16) dot_S40x40_S40x32768_S40x32768_1_0_0_1_n_n none (shapeCast S40x40 W hW) X
        (constant S40x32768 .f32 0x00000000#32)) (broadcastTo S40x32768 (shapeCast S40x1 b hb) hbc))) ht) q
      = act (affine (matT W) (vecC b) (col (K := 40) (Q := 32768) X q)) :=
  funext fun j => congrArg Ideal.tanh (preact_at 40 40 32768 dot_S40x40_S40x32768_S40x32768_1_0_0_1_n_n rfl rfl lhs_mid_0 lhs_mid_1 rhs_mid_0 rhs_mid_1
    (by decide) W b X hW hb hbc j q)

/-- Column `q` of the read-out (fan-out 3, no activation). -/
theorem last_col (W : Vec Ideal S3x40 .bf16) (b : Vec Ideal S3x1 .f32) (X : FVec Ideal S40x32768 .bf16)
    (hW : S3x40.ShapeCasts S3x40) (hb : S3x1.ShapeCasts S3x1) (hbc : S3x1.Broadcasts S3x32768) (q : Fin 32768) :
    col (K := 3) (Q := 32768) (addf (matmul (φ₁ := .bf16) (φ₂ := .bf16) dot_S3x40_S40x32768_S3x32768_1_0_0_1_n_n none (shapeCast S3x40 W hW) X
        (constant S3x32768 .f32 0x00000000#32)) (broadcastTo S3x32768 (shapeCast S3x1 b hb) hbc)) q
      = affine (matT W) (vecC b) (col (K := 40) (Q := 32768) X q) :=
  funext fun j => preact_at 3 40 32768 dot_S3x40_S40x32768_S3x32768_1_0_0_1_n_n rfl rfl lhs_last_0 lhs_last_1 rhs_last_0 rhs_last_1
    (by decide) W b X hW hb hbc j q

/-! ## The body's whole arithmetic -/

/-- Column `q` of what the body stores is the network on column `q` of the coordinates' block, with every weight read
    out of its transposed block and every bias out of its column block. -/
theorem payload_col (v0 : Vec Ideal S3x32768 .f32) (v3 : Vec Ideal S40x3 .bf16) (v5 : Vec Ideal S40x1 .f32)
    (v12 : Vec Ideal S40x40 .bf16) (v14 : Vec Ideal S40x1 .f32) (v21 : Vec Ideal S40x40 .bf16) (v23 : Vec Ideal S40x1 .f32)
    (v30 : Vec Ideal S40x40 .bf16) (v32 : Vec Ideal S40x1 .f32) (v39 : Vec Ideal S40x40 .bf16) (v41 : Vec Ideal S40x1 .f32)
    (v48 : Vec Ideal S40x40 .bf16) (v50 : Vec Ideal S40x1 .f32) (v57 : Vec Ideal S3x40 .bf16) (v59 : Vec Ideal S3x1 .f32)
    (q : Fin 32768) :
    col (K := 3) (Q := 32768) (k0_pay1 (F := Ideal) (k0_pay2 (F := Ideal) v0 v3 v5 v12 v14 v21 v23 v30 v32) v39 v41 v48 v50 v57 v59) q
      = net (matT v3) (vecC v5) (matT v12) (vecC v14) (matT v21) (vecC v23) (matT v30) (vecC v32) (matT v39) (vecC v41)
          (matT v48) (vecC v50) (matT v57) (vecC v59) (col (K := 3) (Q := 32768) v0 q) := by
  unfold k0_pay1 k0_pay2 net
  dsimp only
  refine (last_col _ _ _ _ _ _ q).trans (congrArg (affine (matT v57) (vecC v59)) ?_)
  refine (mid_col _ _ _ _ _ _ _ q).trans (congrArg (fun x => act (affine (matT v48) (vecC v50) x)) ?_)
  refine (mid_col _ _ _ _ _ _ _ q).trans (congrArg (fun x => act (affine (matT v39) (vecC v41) x)) ?_)
  refine (mid_col _ _ _ _ _ _ _ q).trans (congrArg (fun x => act (affine (matT v30) (vecC v32) x)) ?_)
  refine (mid_col _ _ _ _ _ _ _ q).trans (congrArg (fun x => act (affine (matT v21) (vecC v23) x)) ?_)
  refine (mid_col _ _ _ _ _ _ _ q).trans (congrArg (fun x => act (affine (matT v12) (vecC v14) x)) ?_)
  refine (first_col _ _ _ _ _ _ _ q).trans (congrArg (fun x => act (affine (matT v3) (vecC v5) x)) ?_)
  funext k
  show shapeCast S3x32768 v0 _ (ix2 k q) = v0 (ix2 k q)
  rw [shapeCast_self]

end Cert.KernelLayers

end
-- ==== Proof.KernelArrays.lean ====
/-
  What the region finds in each window, in the vocabulary of `Net.lean`.

  Before the region the host lays the data out for a points-in-columns computation: `coords` is transposed to `[3, points]`,
  every weight matrix is transposed to `[fan_out, fan_in]` (and narrowed, the identity on the extended reals), every bias
  is reshaped to a column `[fan_out, 1]`. So a column of the transposed coordinates is a row of `coords`, a transposed
  weight read as `matT` is the weight read as `mat`, and a bias column read as `vecC` is the bias read as `vec`.

  The coordinates' window walks along the points: its block at grid point `t` is columns `32768·t … 32768·t + 32767`.
  Every weight and bias window has a constant-zero index map and a block as large as its array, so at every point it
  stages the whole array.
-/
import proofs.«420546_j52123723104357_3_alg».proof.Proof.Gen.KernelIdeal.Frame
import proofs.«420546_j52123723104357_3_alg».proof.Proof.Net
import Idealize.ShloMosaic.Lib.Pipeline.Value
import Idealize.ShloMosaic.Lib.ValueIdx
import Idealize.ShloMosaic.Lib.StableHlo.Run

noncomputable section

open scoped BigOperators
open Idealize.ShloMosaic Idealize.ShloMosaic.TcCoe Idealize.SL.Sem Idealize.ShloMosaic.ValueIdx Idealize.ShloMosaic.StableHlo
open Cert.KernelIdeal Cert.KernelIdeal.Gen Cert.Net

namespace Cert.KernelArrays

variable (m : (ℓ : Loc nD τ sig) → Buf (Elt Ideal) ℓ)

/-! ## Three layout facts, at any sizes -/

/-- A column of the transpose is a row of the array. -/
theorem col_transpose {N K : ℕ} (X : FVec Ideal ⟨2, ![N, K]⟩ .f32)
    (h : (⟨2, ![N, K]⟩ : Shape).Transposes [1, 0] ⟨2, ![K, N]⟩) (n : Fin N) :
    col (transpose ⟨2, ![K, N]⟩ [1, 0] X h) n = row X n := by
  funext k
  exact transpose_apply [1, 0] X h (ix2 k n) (ix2 n k) (fun b => match b with | ⟨0, _⟩ => rfl | ⟨1, _⟩ => rfl)

/-- A weight read out of its narrowed transpose is the weight. -/
theorem matT_transpose {K J : ℕ} (W : FVec Ideal ⟨2, ![K, J]⟩ .f32)
    (h : (⟨2, ![K, J]⟩ : Shape).Transposes [1, 0] ⟨2, ![J, K]⟩) (ht : FTy.bits .bf16 < FTy.bits .f32) :
    matT (K := K) (J := J) (truncf .bf16 (transpose ⟨2, ![J, K]⟩ [1, 0] W h) ht) = mat W := by
  funext k j
  exact transpose_apply [1, 0] W h (ix2 j k) (ix2 k j) (fun b => match b with | ⟨0, _⟩ => rfl | ⟨1, _⟩ => rfl)

/-- A bias read out of its column reshape is the bias: entry `(j, 0)` of `[J, 1]` and entry `j` of `[J]` have the same
    row-major position. -/
theorem vecC_reshape {J : ℕ} (b : FVec Ideal ⟨1, ![J]⟩ .f32) (h : (⟨1, ![J]⟩ : Shape).ShapeCasts ⟨2, ![J, 1]⟩) :
    vecC (shapeCast ⟨2, ![J, 1]⟩ b h) = vec b := by
  funext j
  exact shapeCast_apply b h (ix2 j 0) (ix1 j) (by
    rw [Shape.rowMajor_val_one, Shape.rowMajor_val_two]; show j.val = j.val * 1 + 0; omega)

/-! ## The arguments, at their literal types -/

abbrev coords (c : Dev nD) : S2097152x3.Idx → EReal := m ((c : Thread nD τ).loc main_arg0)
abbrev W0 (c : Dev nD) : S3x40.Idx → EReal := m ((c : Thread nD τ).loc main_arg1)
abbrev b0 (c : Dev nD) : S40.Idx → EReal := m ((c : Thread nD τ).loc main_arg2)
abbrev W1 (c : Dev nD) : S40x40.Idx → EReal := m ((c : Thread nD τ).loc main_arg3)
abbrev b1 (c : Dev nD) : S40.Idx → EReal := m ((c : Thread nD τ).loc main_arg4)
abbrev W2 (c : Dev nD) : S40x40.Idx → EReal := m ((c : Thread nD τ).loc main_arg5)
abbrev b2 (c : Dev nD) : S40.Idx → EReal := m ((c : Thread nD τ).loc main_arg6)
abbrev W3 (c : Dev nD) : S40x40.Idx → EReal := m ((c : Thread nD τ).loc main_arg7)
abbrev b3 (c : Dev nD) : S40.Idx → EReal := m ((c : Thread nD τ).loc main_arg8)
abbrev W4 (c : Dev nD) : S40x40.Idx → EReal := m ((c : Thread nD τ).loc main_arg9)
abbrev b4 (c : Dev nD) : S40.Idx → EReal := m ((c : Thread nD τ).loc main_arg10)
abbrev W5 (c : Dev nD) : S40x40.Idx → EReal := m ((c : Thread nD τ).loc main_arg11)
abbrev b5 (c : Dev nD) : S40.Idx → EReal := m ((c : Thread nD τ).loc main_arg12)
abbrev W6 (c : Dev nD) : S40x3.Idx → EReal := m ((c : Thread nD τ).loc main_arg13)
abbrev b6 (c : Dev nD) : S3.Idx → EReal := m ((c : Thread nD τ).loc main_arg14)

/-! ## What the host operations before the region leave in each window's array -/

/-- The value of a buffer after the host operations before the region, read off the list of operations. -/
local macro "host_prefix" b:ident : tactic => `(tactic| (
  show StableHlo.after hostOps0 _ (Proc.devRef .tc $b) = _
  after_results
  all_goals rfl))

theorem coordsT_eq (c : Dev nD) : (V m c main_v0 : S3x2097152.Idx → EReal)
    = transpose S3x2097152 [1, 0] (coords m c) transposes_S2097152x3_S3x2097152_1_0 := by host_prefix main_v0

theorem wT0_eq (c : Dev nD) : (V m c main_v2 : S40x3.Idx → EReal)
    = truncf (F := Ideal) .bf16 (transpose S40x3 [1, 0] (W0 m c) transposes_S3x40_S40x3_1_0) bitsLt_bf16_f32 := by
  host_prefix main_v2
theorem wT1_eq (c : Dev nD) : (V m c main_v4 : S40x40.Idx → EReal)
    = truncf (F := Ideal) .bf16 (transpose S40x40 [1, 0] (W1 m c) transposes_S40x40_S40x40_1_0) bitsLt_bf16_f32 := by
  host_prefix main_v4
theorem wT2_eq (c : Dev nD) : (V m c main_v6 : S40x40.Idx → EReal)
    = truncf (F := Ideal) .bf16 (transpose S40x40 [1, 0] (W2 m c) transposes_S40x40_S40x40_1_0) bitsLt_bf16_f32 := by
  host_prefix main_v6
theorem wT3_eq (c : Dev nD) : (V m c main_v8 : S40x40.Idx → EReal)
    = truncf (F := Ideal) .bf16 (transpose S40x40 [1, 0] (W3 m c) transposes_S40x40_S40x40_1_0) bitsLt_bf16_f32 := by
  host_prefix main_v8
theorem wT4_eq (c : Dev nD) : (V m c main_v10 : S40x40.Idx → EReal)
    = truncf (F := Ideal) .bf16 (transpose S40x40 [1, 0] (W4 m c) transposes_S40x40_S40x40_1_0) bitsLt_bf16_f32 := by
  host_prefix main_v10
theorem wT5_eq (c : Dev nD) : (V m c main_v12 : S40x40.Idx → EReal)
    = truncf (F := Ideal) .bf16 (transpose S40x40 [1, 0] (W5 m c) transposes_S40x40_S40x40_1_0) bitsLt_bf16_f32 := by
  host_prefix main_v12
theorem wT6_eq (c : Dev nD) : (V m c main_v14 : S3x40.Idx → EReal)
    = truncf (F := Ideal) .bf16 (transpose S3x40 [1, 0] (W6 m c) transposes_S40x3_S3x40_1_0) bitsLt_bf16_f32 := by
  host_prefix main_v14

theorem bC0_eq (c : Dev nD) : (V m c main_v15 : S40x1.Idx → EReal) = shapeCast S40x1 (b0 m c) shapeCasts_S40_S40x1 := by
  host_prefix main_v15
theorem bC1_eq (c : Dev nD) : (V m c main_v16 : S40x1.Idx → EReal) = shapeCast S40x1 (b1 m c) shapeCasts_S40_S40x1 := by
  host_prefix main_v16
theorem bC2_eq (c : Dev nD) : (V m c main_v17 : S40x1.Idx → EReal) = shapeCast S40x1 (b2 m c) shapeCasts_S40_S40x1 := by
  host_prefix main_v17
theorem bC3_eq (c : Dev nD) : (V m c main_v18 : S40x1.Idx → EReal) = shapeCast S40x1 (b3 m c) shapeCasts_S40_S40x1 := by
  host_prefix main_v18
theorem bC4_eq (c : Dev nD) : (V m c main_v19 : S40x1.Idx → EReal) = shapeCast S40x1 (b4 m c) shapeCasts_S40_S40x1 := by
  host_prefix main_v19
theorem bC5_eq (c : Dev nD) : (V m c main_v20 : S40x1.Idx → EReal) = shapeCast S40x1 (b5 m c) shapeCasts_S40_S40x1 := by
  host_prefix main_v20
theorem bC6_eq (c : Dev nD) : (V m c main_v21 : S3x1.Idx → EReal) = shapeCast S3x1 (b6 m c) shapeCasts_S3_S3x1 := by
  host_prefix main_v21

/-! ## The windows' blocks -/

/-- A window whose index map is constantly zero on both axes and whose block has its array's sizes stages the whole
    array at every grid point (the index map decided over the 64 points). -/
local macro "stages_whole_array" win:ident arr:ident : tactic => `(tactic| (
  intro t
  have hi : ($win).index t (0 : Fin 2) = 0 ∧ ($win).index t (1 : Fin 2) = 0 :=
    (by decide +kernel : ∀ t : Fin grid0.N, ($win).index t (0 : Fin 2) = 0 ∧ ($win).index t (1 : Fin 2) = 0) t
  have hz : (fun a => ($win).index t a * ($arr).ty.shape.size a) = fun _ => 0 := funext fun a => match a with
    | ⟨0, _⟩ => by show ($win).index t 0 * _ = 0; rw [hi.1, Nat.zero_mul]
    | ⟨1, _⟩ => by show ($win).index t 1 * _ = 0; rw [hi.2, Nat.zero_mul]
  exact Memref.read_access_unit_zero (Elt Ideal) $arr hz (fun a => by rw [congrFun hz a]; simp) _))

theorem blk1 (c : Dev nD) : ∀ t : Fin cfg0.N, (iblk m c 1 t : S40x3.Idx → EReal) = V m c main_v2 := by
  stages_whole_array win0_1 main_v2
theorem blk2 (c : Dev nD) : ∀ t : Fin cfg0.N, (iblk m c 2 t : S40x1.Idx → EReal) = V m c main_v15 := by
  stages_whole_array win0_2 main_v15
theorem blk3 (c : Dev nD) : ∀ t : Fin cfg0.N, (iblk m c 3 t : S40x40.Idx → EReal) = V m c main_v4 := by
  stages_whole_array win0_3 main_v4
theorem blk4 (c : Dev nD) : ∀ t : Fin cfg0.N, (iblk m c 4 t : S40x1.Idx → EReal) = V m c main_v16 := by
  stages_whole_array win0_4 main_v16
theorem blk5 (c : Dev nD) : ∀ t : Fin cfg0.N, (iblk m c 5 t : S40x40.Idx → EReal) = V m c main_v6 := by
  stages_whole_array win0_5 main_v6
theorem blk6 (c : Dev nD) : ∀ t : Fin cfg0.N, (iblk m c 6 t : S40x1.Idx → EReal) = V m c main_v17 := by
  stages_whole_array win0_6 main_v17
theorem blk7 (c : Dev nD) : ∀ t : Fin cfg0.N, (iblk m c 7 t : S40x40.Idx → EReal) = V m c main_v8 := by
  stages_whole_array win0_7 main_v8
theorem blk8 (c : Dev nD) : ∀ t : Fin cfg0.N, (iblk m c 8 t : S40x1.Idx → EReal) = V m c main_v18 := by
  stages_whole_array win0_8 main_v18
theorem blk9 (c : Dev nD) : ∀ t : Fin cfg0.N, (iblk m c 9 t : S40x40.Idx → EReal) = V m c main_v10 := by
  stages_whole_array win0_9 main_v10
theorem blk10 (c : Dev nD) : ∀ t : Fin cfg0.N, (iblk m c 10 t : S40x1.Idx → EReal) = V m c main_v19 := by
  stages_whole_array win0_10 main_v19
theorem blk11 (c : Dev nD) : ∀ t : Fin cfg0.N, (iblk m c 11 t : S40x40.Idx → EReal) = V m c main_v12 := by
  stages_whole_array win0_11 main_v12
theorem blk12 (c : Dev nD) : ∀ t : Fin cfg0.N, (iblk m c 12 t : S40x1.Idx → EReal) = V m c main_v20 := by
  stages_whole_array win0_12 main_v20
theorem blk13 (c : Dev nD) : ∀ t : Fin cfg0.N, (iblk m c 13 t : S3x40.Idx → EReal) = V m c main_v14 := by
  stages_whole_array win0_13 main_v14
theorem blk14 (c : Dev nD) : ∀ t : Fin cfg0.N, (iblk m c 14 t : S3x1.Idx → EReal) = V m c main_v21 := by
  stages_whole_array win0_14 main_v21

/-- The coordinates' window sits on row block 0 and walks the column blocks with the grid point. -/
theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- Column `q` of the coordinates' block at point `t` is row `32768·t + q` of `coords`. -/
theorem point_col (c : Dev nD) (t : Fin cfg0.N) (q : Fin 32768) (n : Fin 2097152) (hn : n.val = 32768 * t.val + q.val) :
    col (K := 3) (Q := 32768) (iblk m c 0 t) q = row (coords m c) n := by
  have hi := idx0 t
  have hb : col (K := 3) (Q := 32768) (iblk m c 0 t) q = col (K := 3) (Q := 2097152) (V m c main_v0) n := by
    funext k
    show iblk m c 0 t (ix2 k q) = V m c main_v0 (ix2 k n)
    unfold iblk
    rw [View.read_apply]
    refine congrArg (V m c main_v0) (funext fun a => Fin.ext ?_)
    match a with
    | ⟨0, _⟩ => show win0_0.index t 0 * 3 + 1 * k.val = k.val; rw [hi.1]; omega
    | ⟨1, _⟩ => show win0_0.index t 1 * 32768 + 1 * q.val = n.val; rw [hi.2, hn]; omega
  rw [hb, coordsT_eq m c]
  exact col_transpose _ _ n

/-! ## Each weight and bias window, read as the network reads it -/

theorem weight0 (c : Dev nD) (t : Fin cfg0.N) : matT (K := 3) (J := 40) (iblk m c 1 t) = mat (W0 m c) := by
  rw [blk1 m c t, wT0_eq m c]; exact matT_transpose _ _ _
theorem weight1 (c : Dev nD) (t : Fin cfg0.N) : matT (K := 40) (J := 40) (iblk m c 3 t) = mat (W1 m c) := by
  rw [blk3 m c t, wT1_eq m c]; exact matT_transpose _ _ _
theorem weight2 (c : Dev nD) (t : Fin cfg0.N) : matT (K := 40) (J := 40) (iblk m c 5 t) = mat (W2 m c) := by
  rw [blk5 m c t, wT2_eq m c]; exact matT_transpose _ _ _
theorem weight3 (c : Dev nD) (t : Fin cfg0.N) : matT (K := 40) (J := 40) (iblk m c 7 t) = mat (W3 m c) := by
  rw [blk7 m c t, wT3_eq m c]; exact matT_transpose _ _ _
theorem weight4 (c : Dev nD) (t : Fin cfg0.N) : matT (K := 40) (J := 40) (iblk m c 9 t) = mat (W4 m c) := by
  rw [blk9 m c t, wT4_eq m c]; exact matT_transpose _ _ _
theorem weight5 (c : Dev nD) (t : Fin cfg0.N) : matT (K := 40) (J := 40) (iblk m c 11 t) = mat (W5 m c) := by
  rw [blk11 m c t, wT5_eq m c]; exact matT_transpose _ _ _
theorem weight6 (c : Dev nD) (t : Fin cfg0.N) : matT (K := 40) (J := 3) (iblk m c 13 t) = mat (W6 m c) := by
  rw [blk13 m c t, wT6_eq m c]; exact matT_transpose _ _ _

theorem bias0 (c : Dev nD) (t : Fin cfg0.N) : vecC (J := 40) (iblk m c 2 t) = vec (b0 m c) := by
  rw [blk2 m c t, bC0_eq m c]; exact vecC_reshape _ _
theorem bias1 (c : Dev nD) (t : Fin cfg0.N) : vecC (J := 40) (iblk m c 4 t) = vec (b1 m c) := by
  rw [blk4 m c t, bC1_eq m c]; exact vecC_reshape _ _
theorem bias2 (c : Dev nD) (t : Fin cfg0.N) : vecC (J := 40) (iblk m c 6 t) = vec (b2 m c) := by
  rw [blk6 m c t, bC2_eq m c]; exact vecC_reshape _ _
theorem bias3 (c : Dev nD) (t : Fin cfg0.N) : vecC (J := 40) (iblk m c 8 t) = vec (b3 m c) := by
  rw [blk8 m c t, bC3_eq m c]; exact vecC_reshape _ _
theorem bias4 (c : Dev nD) (t : Fin cfg0.N) : vecC (J := 40) (iblk m c 10 t) = vec (b4 m c) := by
  rw [blk10 m c t, bC4_eq m c]; exact vecC_reshape _ _
theorem bias5 (c : Dev nD) (t : Fin cfg0.N) : vecC (J := 40) (iblk m c 12 t) = vec (b5 m c) := by
  rw [blk12 m c t, bC5_eq m c]; exact vecC_reshape _ _
theorem bias6 (c : Dev nD) (t : Fin cfg0.N) : vecC (J := 3) (iblk m c 14 t) = vec (b6 m c) := by
  rw [blk14 m c t, bC6_eq m c]; exact vecC_reshape _ _

end Cert.KernelArrays

end
-- ==== Proof.KernelValue.lean ====
/-
  The array the pallas_call leaves, and the program's result.

  Grid point `t` computes columns `32768·t … 32768·t + 32767` of a `[3, points]` array: column `n` holds the network's
  three outputs on point `n` (row `n` of `coords`). The 64 blocks tile the array, so after the region the whole array is
  that function. The host then transposes it back to `[points, 3]`.
-/
import proofs.«420546_j52123723104357_3_alg».proof.Proof.Gen.KernelIdeal.Frame
import proofs.«420546_j52123723104357_3_alg».proof.Proof.Net
import proofs.«420546_j52123723104357_3_alg».proof.Proof.KernelLayers
import proofs.«420546_j52123723104357_3_alg».proof.Proof.KernelArrays
import Idealize.ShloMosaic.Lib.Pipeline.Value
import Idealize.ShloMosaic.Lib.ValueIdx
import Idealize.ShloMosaic.Lib.StableHlo.Run

noncomputable section

open scoped BigOperators
open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Net Cert.KernelArrays Cert.KernelLayers

namespace Cert.KernelValue

variable (m : (ℓ : Loc nD τ sig) → Buf (Elt Ideal) ℓ) (ρ : Dev nD → PrngReg)

/-- The network with the weights and biases memory `m` holds at launch. -/
def netOf (c : Dev nD) (x : Fin 3 → EReal) : Fin 3 → EReal :=
  net (mat (W0 m c)) (vec (b0 m c)) (mat (W1 m c)) (vec (b1 m c)) (mat (W2 m c)) (vec (b2 m c)) (mat (W3 m c)) (vec (b3 m c))
    (mat (W4 m c)) (vec (b4 m c)) (mat (W5 m c)) (vec (b5 m c)) (mat (W6 m c)) (vec (b6 m c)) x

/-- The pallas_call's result array, one point per column. -/
def outT (c : Dev nD) : S3x2097152.Idx → EReal := fun i => netOf m c (row (coords m c) (i 1)) (i 0)

theorem hz : (![0, 0] : Fin 2 → Nat) = fun _ => 0 := funext fun a => match a with | ⟨0, _⟩ => rfl | ⟨1, _⟩ => rfl

/-- The output window sits on row block 0 and walks the column blocks with the grid point. -/
theorem idx15 : ∀ t : Fin cfg0.N, win0_15.index t (0 : Fin 2) = 0 ∧ win0_15.index t (1 : Fin 2) = t.val :=
  (by decide +kernel : ∀ t : Fin grid0.N, win0_15.index t (0 : Fin 2) = 0 ∧ win0_15.index t (1 : Fin 2) = t.val)

/-- What point `t` writes back is block `t` of `outT`: the body's arithmetic on column `q` of the point's blocks is the
    network on row `32768·t + q` of `coords`. -/
theorem flushed_eq (c : Dev nD) (t : Fin cfg0.N) :
    (dats m 0 c).flushed 15 t = ((cfg0.win 15).blk t).view.read (Elt Ideal) (outT m c) := by
  show (cfg0.win 15).cut (grid0.coords t) ((dats m 0 c).after 15 t) = _
  rw [after0_15]
  unfold out0_15
  rw [View.canon_unit_zero hz]
  simp only [View.ld_unit_zero (S := S3x32768) hz, View.ld_unit_zero (S := S40x3) hz, View.ld_unit_zero (S := S40x1) hz,
    View.ld_unit_zero (S := S40x40) hz, View.ld_unit_zero (S := S3x40) hz, View.ld_unit_zero (S := S3x1) hz]
  refine funext fun (y : S3x32768.Idx) => ?_
  obtain ⟨j, q, rfl⟩ : ∃ (j : Fin 3) (q : Fin 32768), y = ix2 j q := ⟨y 0, y 1, eq_ix2 y⟩
  have hN : cfg0.N = 64 := N_0
  have ht : t.val < 64 := hN ▸ t.isLt
  have hn : 32768 * t.val + q.val < 2097152 := by have := q.isLt; omega
  obtain ⟨e0, e1⟩ := idx15 t
  have he : ((cfg0.win 15).blk t).view.emb (ix2 j q) = ix2 j (⟨32768 * t.val + q.val, hn⟩ : Fin 2097152) :=
    funext fun a => Fin.ext (by
      match a with
      | ⟨0, _⟩ => show win0_15.index t 0 * 3 + 1 * j.val = j.val; rw [e0]; omega
      | ⟨1, _⟩ => show win0_15.index t 1 * 32768 + 1 * q.val = 32768 * t.val + q.val; rw [e1]; omega)
  show _ = outT m c (((cfg0.win 15).blk t).view.emb (ix2 j q))
  rw [he]
  refine (congrFun (payload_col (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) q) j).trans ?_
  rw [weight0 m c t, bias0 m c t, weight1 m c t, bias1 m c t, weight2 m c t, bias2 m c t, weight3 m c t, bias3 m c t,
    weight4 m c t, bias4 m c t, weight5 m c t, bias5 m c t, weight6 m c t, bias6 m c t,
    point_col m c t q ⟨32768 * t.val + q.val, hn⟩ rfl]
  rfl

/-- An index is in point `t`'s block iff each coordinate is in the block's range on its axis. -/
theorem mem_blk (t : Fin cfg0.N) (i : S3x2097152.Idx) :
    i ∈ ((cfg0.win 15).blk t).view.set ↔ ∀ a : Fin 2, win0_15.index t a * S3x32768.size a ≤ (i a).val
      ∧ (i a).val < win0_15.index t a * S3x32768.size a + S3x32768.size a := by
  show i ∈ ((View.whole main_v22).slice (win0_15.rect t)).set ↔ _
  rw [View.set_slice_whole, Rect.mem_set_unit]
  exact Iff.rfl

/-- Every column lies in the block of the point its number divided by 32768 names. -/
theorem cover (i : S3x2097152.Idx) :
    ∃ t : Fin cfg0.N, (cfg0.win 15).flush t = true ∧ i ∈ ((cfg0.win 15).blk t).view.set := by
  have h0 : (i 0).val < 3 := (i 0).isLt
  have h1 : (i 1).val < 2097152 := (i 1).isLt
  have hN : cfg0.N = 64 := N_0
  obtain ⟨t, ht⟩ : ∃ t : Fin cfg0.N, t.val = (i 1).val / 32768 := ⟨⟨(i 1).val / 32768, by rw [hN]; omega⟩, rfl⟩
  obtain ⟨e0, e1⟩ := idx15 t
  refine ⟨t, flush0_15 t, ?_⟩
  rw [mem_blk]
  intro a
  match a with
  | ⟨0, _⟩ => show win0_15.index t 0 * 3 ≤ (i 0).val ∧ (i 0).val < win0_15.index t 0 * 3 + 3; rw [e0]; omega
  | ⟨1, _⟩ => show win0_15.index t 1 * 32768 ≤ (i 1).val ∧ (i 1).val < win0_15.index t 1 * 32768 + 32768; rw [e1, ht]; omega

/-- The array after the region is `outT`. -/
theorem final (c : Dev nD) : (dats m 0 c).arrAt 15 cfg0.N = outT m c :=
  (dats m 0 c).arrAt_eq_of_cover 15 (outT m c) (fun t _ => flushed_eq m c t) cover

/-- The host's transpose after the region turns `outT` into the network applied to each row of `coords`. -/
theorem tail_eq (c : Dev nD) :
    Pipeline.afterTail₀ cfgs (dats m) 0 (V0 m) [hostOps1] c main_v23
      = Net.out (coords m c) (W0 m c) (b0 m c) (W1 m c) (b1 m c) (W2 m c) (b2 m c) (W3 m c) (b3 m c) (W4 m c) (b4 m c)
          (W5 m c) (b5 m c) (W6 m c) (b6 m c) := by
  unfold Pipeline.afterTail₀
  show StableHlo.after hostOps1 _ (Proc.devRef .tc main_v23) = _
  after_results
  have hA : (Pipeline.withArrays (cfgs 0).spec c (V0 m c) (fun w => (dats m 0 c).arrAt w (cfgs 0).N)
      (Proc.devRef .tc main_v22) : S3x2097152.Idx → EReal) = outT m c :=
    (Pipeline.withArrays_arr spec0 launch0.win.arr_inj c _ _ 15).trans (final m c)
  rw [hA]
  funext i
  obtain ⟨n, j, rfl⟩ : ∃ (n : Fin 2097152) (j : Fin 3), i = ix2 n j := ⟨i 0, i 1, eq_ix2 i⟩
  exact transpose_apply [1, 0] (outT m c) transposes_S3x2097152_S2097152x3_1_0 (ix2 n j) (ix2 j n)
    (fun b => match b with | ⟨0, _⟩ => rfl | ⟨1, _⟩ => rfl)

/-- The kernel program's run, read: the result is the network applied to each row of `coords`, the arguments unchanged. -/
theorem run : θ_run defs (onTc (τ := τ) (main (F := Ideal))) ⟨m, fun _ => 0, ρ⟩ fun r => ∀ c : Dev nD,
      r.2.mem ((c.tc : Thread nD τ).loc main_v23)
        = Net.out (coords m c) (W0 m c) (b0 m c) (W1 m c) (b1 m c) (W2 m c) (b2 m c) (W3 m c) (b3 m c) (W4 m c) (b4 m c)
            (W5 m c) (b5 m c) (W6 m c) (b6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨
      ((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c)⟩)
    (run_main m ρ)

end Cert.KernelValue

end
-- ==== Proof.lean ====
/-
  The certificate: the transposed Pallas coordinate network is its jnp reference on the extended reals.

  Both programs apply, to every point of `coords`, six layers `x ↦ tanh (x · W + b)` of width 40 and an affine read-out
  (`Proof/Net.lean`). The reference keeps a point in a row and multiplies `x · W` (`Proof/RefStages.lean`); the kernel
  transposes everything on the host, keeps a point in a column, multiplies `Wᵀ · xᵀ` block of 32768 points by block, and
  transposes the `[3, points]` result back (`Proof/KernelLayers.lean`: one column of one block; `Proof/KernelArrays.lean`:
  what each window holds; `Proof/KernelValue.lean`: the blocks tile the array, and the final transpose). At the ideal
  values narrowing to bf16 is the identity and a matrix product is the plain sum of products, so the two results differ
  only in the order of the factors of each product: they are equal by commutativity of multiplication on `EReal`, for all
  inputs (the precondition is not used by the value argument). The frames of the two kernel programs are the generated
  ones; the reference's frame is its run with the result dropped; the idealization ledger is empty.
-/
import proofs.«420546_j52123723104357_3_alg».proof.Defs
import proofs.«420546_j52123723104357_3_alg».proof.Proof.Gen.Kernel
import proofs.«420546_j52123723104357_3_alg».proof.Proof.Gen.Kernel.Skeleton
import proofs.«420546_j52123723104357_3_alg».proof.Proof.Gen.Kernel.Launch
import proofs.«420546_j52123723104357_3_alg».proof.Proof.Gen.Kernel.Points
import proofs.«420546_j52123723104357_3_alg».proof.Proof.Gen.Kernel.Frame
import proofs.«420546_j52123723104357_3_alg».proof.Proof.Gen.KernelIdeal
import proofs.«420546_j52123723104357_3_alg».proof.Proof.Gen.KernelIdeal.Skeleton
import proofs.«420546_j52123723104357_3_alg».proof.Proof.Gen.KernelIdeal.Launch
import proofs.«420546_j52123723104357_3_alg».proof.Proof.Gen.KernelIdeal.Points
import proofs.«420546_j52123723104357_3_alg».proof.Proof.Gen.KernelIdeal.Frame
import proofs.«420546_j52123723104357_3_alg».proof.Proof.Gen.ReferenceIdeal
import proofs.«420546_j52123723104357_3_alg».proof.Proof.Gen.ReferenceIdeal.Run
import proofs.«420546_j52123723104357_3_alg».proof.Proof.Gen.ReferenceIdeal.Read
import proofs.«420546_j52123723104357_3_alg».proof.Proof.Gen.Pre_finite_inputs
import proofs.«420546_j52123723104357_3_alg».proof.Proof.Net
import proofs.«420546_j52123723104357_3_alg».proof.Proof.RefStages
import proofs.«420546_j52123723104357_3_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network applied to each row of `coords`: the kernel by `KernelValue.run`, the reference
    by its generated run read as `Net.out` (`RefStages.result_eq`), on arguments that agree. -/
theorem algebraic : Cert.algebraic_KernelIdeal_ReferenceIdeal := by
  intro m ρ m' ρ' _ hagree
  refine ⟨_, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.RefStages.result_eq]
  obtain ⟨a0, a1, a2, a3, a4, a5, a6, a7, a8, a9, a10, a11, a12, a13, a14⟩ := hagree c
  rw [a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
